-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S1 : Shape := ⟨1, ![1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S8192x1 .f32) (main_arg1 : FVec F S8192x1 .f32) (main_arg2 : FVec F S1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8192x1 : Shape := ⟨2, ![8192, 1]⟩
abbrev S1 : Shape := ⟨1, ![1]⟩
abbrev S8192 : Shape := ⟨1, ![8192]⟩
abbrev S1x8192 : Shape := ⟨2, ![1, 8192]⟩
abbrev S8192x8192 : Shape := ⟨2, ![8192, 8192]⟩
abbrev S512x1 : Shape := ⟨2, ![512, 1]⟩
abbrev S1x1024 : Shape := ⟨2, ![1, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S1, .f32⟩
  | .hbm, ⟨3, _⟩ => ⟨S8192, .f32⟩
  | .hbm, ⟨4, _⟩ => ⟨S1x8192, .f32⟩
  | .hbm, ⟨5, _⟩ => ⟨S8192x8192, .f32⟩
  | .local _ .vmem, ⟨0, _⟩ => ⟨S512x1, .f32⟩
  | .local _ .vmem, ⟨1, _⟩ => ⟨S512x1, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8192x1_S8192 : S8192x1.ShapeCasts S8192
  bcast_S8192_S1x8192_1 : S8192.BroadcastsInDim S1x8192 (![1] : Fin 1 → Fin S1x8192.rank)
  inb_S512x1_S512x1_0_0 : ∀ a, (![0, 0] : Fin 2 → Nat) a + S512x1.size a ≤ S512x1.size a
  h_S512x1 : 0 < S512x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x8192.size a
  hwx0_2 : ∀ i : grid0.Coords, EltTy.bits .f32 = 32 ∨ (Rect.block (s := S8192x8192) S512x1024.size (cc0_transform_2 i) (hinb0_2 i)).WholeWords (EltTy.packing .f32)

variable [Facts₀]

abbrev win0_0 : Pipeline.Window sig grid0 :=
  Pipeline.Window.ofSpec (Memref.whole main_arg0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1 : Shape := ⟨2, ![8192, 1]⟩
abbrev S1 : Shape := ⟨1, ![1]⟩
abbrev S8192 : Shape := ⟨1, ![8192]⟩
abbrev S1x8192 : Shape := ⟨2, ![1, 8192]⟩
abbrev S_ : Shape := ⟨0, ![]⟩
abbrev S8192x8192 : Shape := ⟨2, ![8192, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S1, .f32⟩
  | .hbm, ⟨3, _⟩ => ⟨S8192, .f32⟩
  | .hbm, ⟨4, _⟩ => ⟨S8192x1, .f32⟩
  | .hbm, ⟨5, _⟩ => ⟨S8192, .f32⟩
  | .hbm, ⟨6, _⟩ => ⟨S1x8192, .f32⟩
  | .hbm, ⟨7, _⟩ => ⟨S8192x1, .f32⟩
  | .hbm, ⟨8, _⟩ => ⟨S1x8192, .f32⟩
  | .hbm, ⟨9, _⟩ => ⟨S_, .f32⟩
  | .hbm, ⟨10, _⟩ => ⟨S1x8192, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S1x8192, .f32⟩
  | .hbm, ⟨50, _⟩ => ⟨S_, .f32⟩
  | .hbm, ⟨51, _⟩ => ⟨S1x8192, .f32⟩
  | .hbm, ⟨52, _⟩ => ⟨S1x8192, .f32⟩
  | .hbm, ⟨53, _⟩ => ⟨S_, .f32⟩
  | .hbm, ⟨54, _⟩ => ⟨S1x8192, .f32⟩
  | .hbm, ⟨55, _⟩ => ⟨S1x8192, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S1x8192, .f32⟩
  | .hbm, ⟨60, _⟩ => ⟨S1x8192, .f32⟩
  | .hbm, ⟨61, _⟩ => ⟨S8192x8192, .f32⟩
  | .hbm, ⟨62, _⟩ => ⟨S8192x8192, .f32⟩
  | .hbm, ⟨63, _⟩ => ⟨S8192x8192, .f32⟩
  | .hbm, ⟨64, _⟩ => ⟨S8192x8192, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S8192x8192, .f32⟩
  | .hbm, ⟨70, _⟩ => ⟨S8192x8192, .f32⟩
  | .hbm, ⟨71, _⟩ => ⟨S8192x8192, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]

class Facts₀ : Prop where
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S_S1x8192 : S_.BroadcastsInDim S1x8192 (![] : Fin 0 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  bcast_S_S8192x1 : S_.BroadcastsInDim S8192x1 (![] : Fin 0 → Fin S8192x1.rank)

variable [Facts₀]

class Facts : Prop extends Facts₀ where

variable [Facts]
-- ==== Proof.Formula.lean ====
/-
  The function both programs compute, entry by entry.

  With `a` an entry of the first argument (a column of 8192 numbers) and `b` an entry of the second (used as a row),
  put `u = exp (-(a² + 2·b² + 1))`. The result's entry at row `i`, column `j` is

    -(( (u²·4·a² - u·2) + (u²·16·b² - u·4) ) · (1 + 2·b²) + (4·b) · ((-u)·4·b)) + (1 + a²) · u

  at `a` the first argument's entry `i` and `b` the second's entry `j`. Everything is read on the extended reals; the
  constants are kept as the words the programs print (the same word on both sides is never evaluated). `cell` writes
  the three negations as negations; `cellSub` writes each as a difference from the zero word, which is how one of the
  two programs spells them. The two agree everywhere, infinite entries included: `0 - v = -v` on the extended reals
  needs no finiteness.
-/
import Idealize.ShloMosaic.PureOps.Ideal
import Idealize.ShloMosaic.PureOps.Ideal.Laws
import Idealize.ShloMosaic.Lib.ValueIdx

noncomputable section

namespace Cert.Formula

open Idealize.ShloMosaic Idealize.ShloMosaic.ValueIdx

/-- The words of the constants 0, 1, 2, 4 and 16, as extended reals. -/
abbrev w0 : EReal := Ideal.ofBits .f32 0x00000000#32
abbrev w1 : EReal := Ideal.ofBits .f32 0x3F800000#32
abbrev w2 : EReal := Ideal.ofBits .f32 0x40000000#32
abbrev w4 : EReal := Ideal.ofBits .f32 0x40800000#32
abbrev w16 : EReal := Ideal.ofBits .f32 0x41800000#32

/-- `u = exp (-(a² + 2·b² + 1))`. -/
def gauss (a b : EReal) : EReal := Ideal.exp (-((a * a + w2 * (b * b)) + w1))

/-- One entry of the result from the two entries it depends on. -/
def cell (a b : EReal) : EReal :=
  -((((gauss a b * gauss a b) * w4 * (a * a) - gauss a b * w2)
        + ((gauss a b * gauss a b) * w16 * (b * b) - gauss a b * w4)) * (w1 + w2 * (b * b))
      + (w4 * b) * ((-(gauss a b)) * w4 * b))
    + (w1 + a * a) * gauss a b

/-- `u` with its negation written as a difference from the zero word. -/
def gaussSub (a b : EReal) : EReal := Ideal.exp (w0 - ((a * a + w2 * (b * b)) + w1))

/-- The entry with every negation written as a difference from the zero word. -/
def cellSub (a b : EReal) : EReal :=
  (w0 - ((((gaussSub a b * gaussSub a b) * w4 * (a * a) - gaussSub a b * w2)
        + ((gaussSub a b * gaussSub a b) * w16 * (b * b) - gaussSub a b * w4)) * (w1 + w2 * (b * b))
      + (w4 * b) * ((w0 - gaussSub a b) * w4 * b)))
    + (w1 + a * a) * gaussSub a b

/-- On the extended reals a difference from the zero word is the negation, at every value. -/
theorem w0_sub (v : EReal) : w0 - v = -v := by
  show Ideal.ofBits .f32 0x00000000#32 - v = -v
  rw [Ideal.ofBits_zero_f32, zero_sub]

theorem gaussSub_eq (a b : EReal) : gaussSub a b = gauss a b := by
  unfold gaussSub gauss
  rw [w0_sub]

/-- The two spellings are one function. -/
theorem cellSub_eq (a b : EReal) : cellSub a b = cell a b := by
  unfold cellSub cell
  rw [gaussSub_eq, w0_sub, w0_sub]

/-- The result array: entry `(i, j)` from entry `i` of `x` and entry `j` of `y`, both `[8192, 1]` columns. -/
def result (x y : (⟨2, ![8192, 1]⟩ : Shape).Idx → EReal) : (⟨2, ![8192, 8192]⟩ : Shape).Idx → EReal :=
  fun k => cell (x (ix2 (k 0) (0 : Fin 1))) (y (ix2 (k 1) (0 : Fin 1)))

theorem result_apply (x y : (⟨2, ![8192, 1]⟩ : Shape).Idx → EReal) (i j : Fin 8192) :
    result x y (ix2 i j) = cell (x (ix2 i (0 : Fin 1))) (y (ix2 j (0 : Fin 1))) := rfl

end Cert.Formula

end
-- ==== Proof.RefValue.lean ====
/-
  The reference's result, read entry by entry, is the shared formula.

  The reference first re-lays its two `[8192, 1]` arguments: the first stays a column `xc` (entry `(i, 0)` is the
  argument's entry `i`), the second becomes a row `yr` (entry `(0, j)` is the argument's entry `j`). Every later stage
  is a pointwise operation, a splat constant, or a broadcast of a column along the rows or of a row along the
  columns, so at entry `(i, j)` each stage is an expression in `a = x i` and `b = y j` alone. The stages are read in the
  order the formula is built: the exponential `u`, the three products that make the bracket, and the closing sum.
-/
import proofs.«123482_j2559800508493_1_alg».proof.Proof.Gen.ReferenceIdeal.Read
import proofs.«123482_j2559800508493_1_alg».proof.Proof.Formula
import Idealize.ShloMosaic.Lib.ValueIdx

noncomputable section

namespace Cert.RefValue

open Cert.ReferenceIdeal Cert.ReferenceIdeal.Read Idealize.ShloMosaic Idealize.ShloMosaic.ValueIdx Cert.Formula

variable (x y : FVec Ideal S8192x1 .f32) (i j : Fin 8192)

/-! ## The two arguments as a column and a row -/

/-- The column: entry `(i, 0)` is the first argument's entry `i` (a reshape to a vector and back changes no position). -/
theorem col_entry : val_main_v1 (F := Ideal) x (ix2 i (0 : Fin 1)) = x (ix2 i (0 : Fin 1)) := by
  rw [val_main_v1_apply, val_main_v0_apply]
  congr 1
  funext a
  apply Fin.ext
  match a with
  | ⟨0, _⟩ => exact Nat.div_one _
  | ⟨1, _⟩ => rfl

/-- The row: entry `(0, j)` is the second argument's entry `j`. -/
theorem row_entry : val_main_v3 (F := Ideal) y (ix2 (0 : Fin 1) j) = y (ix2 j (0 : Fin 1)) := by
  rw [val_main_v3_apply, val_main_v2_apply]
  congr 1
  funext a
  apply Fin.ext
  match a with
  | ⟨0, _⟩ => exact Nat.div_one _
  | ⟨1, _⟩ => rfl

/-! ## Where a broadcast reads: a column along the rows, a row along the columns -/

theorem at_col8 : idx_main_v8 (ix2 i j) = ix2 i (0 : Fin 1) := funext fun a => match a with | ⟨0, _⟩ => rfl | ⟨1, _⟩ => rfl
theorem at_col24 : idx_main_v24 (ix2 i j) = ix2 i (0 : Fin 1) := funext fun a => match a with | ⟨0, _⟩ => rfl | ⟨1, _⟩ => rfl
theorem at_col55 : idx_main_v55 (ix2 i j) = ix2 i (0 : Fin 1) := funext fun a => match a with | ⟨0, _⟩ => rfl | ⟨1, _⟩ => rfl
theorem at_row9 : idx_main_v9 (ix2 i j) = ix2 (0 : Fin 1) j := funext fun a => match a with | ⟨0, _⟩ => rfl | ⟨1, _⟩ => rfl
theorem at_row18 : idx_main_v18 (ix2 i j) = ix2 (0 : Fin 1) j := funext fun a => match a with | ⟨0, _⟩ => rfl | ⟨1, _⟩ => rfl
theorem at_row33 : idx_main_v33 (ix2 i j) = ix2 (0 : Fin 1) j := funext fun a => match a with | ⟨0, _⟩ => rfl | ⟨1, _⟩ => rfl
theorem at_row44 : idx_main_v44 (ix2 i j) = ix2 (0 : Fin 1) j := funext fun a => match a with | ⟨0, _⟩ => rfl | ⟨1, _⟩ => rfl
theorem at_row48 : idx_main_v48 (ix2 i j) = ix2 (0 : Fin 1) j := funext fun a => match a with | ⟨0, _⟩ => rfl | ⟨1, _⟩ => rfl

/-! ## The exponential -/

/-- `u` at entry `(i, j)`: the exponential of minus `(a² + 2·b² + 1)`. -/
theorem u_entry : val_main_v14 (F := Ideal) x y (ix2 i j) = gauss (x (ix2 i (0 : Fin 1))) (y (ix2 j (0 : Fin 1))) := by
  rw [val_main_v14_apply, val_main_v13_apply, val_main_v12_apply, val_main_v10_apply, val_main_v8_apply, val_main_v9_apply,
    val_main_v11_apply, val_main_cst_0_apply, at_col8, at_row9, val_main_v4_apply, col_entry, val_main_v7_apply,
    val_main_v6_apply, val_main_cst_apply, val_main_v5_apply, row_entry]
  rfl

/-! ## The pieces of the bracket -/

/-- `((-u)·4)·b`. -/
theorem du2_entry : val_main_v19 (F := Ideal) x y (ix2 i j)
    = (-(gauss (x (ix2 i (0 : Fin 1))) (y (ix2 j (0 : Fin 1))))) * w4 * y (ix2 j (0 : Fin 1)) := by
  rw [val_main_v19_apply, val_main_v17_apply, val_main_v15_apply, u_entry, val_main_v16_apply, val_main_cst_1_apply,
    val_main_v18_apply, at_row18, row_entry]
  rfl

/-- `(u·u)·4·a² - u·2`. -/
theorem du11_entry : val_main_v28 (F := Ideal) x y (ix2 i j)
    = (gauss (x (ix2 i (0 : Fin 1))) (y (ix2 j (0 : Fin 1))) * gauss (x (ix2 i (0 : Fin 1))) (y (ix2 j (0 : Fin 1)))) * w4
        * (x (ix2 i (0 : Fin 1)) * x (ix2 i (0 : Fin 1)))
      - gauss (x (ix2 i (0 : Fin 1))) (y (ix2 j (0 : Fin 1))) * w2 := by
  rw [val_main_v28_apply, val_main_v25_apply, val_main_v22_apply, val_main_v20_apply, u_entry, val_main_v21_apply,
    val_main_cst_2_apply, val_main_v24_apply, at_col24, val_main_v23_apply, col_entry, val_main_v27_apply, u_entry,
    val_main_v26_apply, val_main_cst_3_apply]
  rfl

/-- `(u·u)·16·b² - u·4`. -/
theorem du22_entry : val_main_v37 (F := Ideal) x y (ix2 i j)
    = (gauss (x (ix2 i (0 : Fin 1))) (y (ix2 j (0 : Fin 1))) * gauss (x (ix2 i (0 : Fin 1))) (y (ix2 j (0 : Fin 1)))) * w16
        * (y (ix2 j (0 : Fin 1)) * y (ix2 j (0 : Fin 1)))
      - gauss (x (ix2 i (0 : Fin 1))) (y (ix2 j (0 : Fin 1))) * w4 := by
  rw [val_main_v37_apply, val_main_v34_apply, val_main_v31_apply, val_main_v29_apply, u_entry, val_main_v30_apply,
    val_main_cst_4_apply, val_main_v33_apply, at_row33, val_main_v32_apply, row_entry, val_main_v36_apply, u_entry,
    val_main_v35_apply, val_main_cst_5_apply]
  rfl

/-- `1 + 2·b²`, a row broadcast along the columns. -/
theorem weight_entry : val_main_v44 (F := Ideal) y (ix2 i j) = w1 + w2 * (y (ix2 j (0 : Fin 1)) * y (ix2 j (0 : Fin 1))) := by
  rw [val_main_v44_apply, at_row44, val_main_v43_apply, val_main_v42_apply, val_main_cst_7_apply, val_main_v41_apply,
    val_main_v40_apply, val_main_cst_6_apply, val_main_v39_apply, row_entry]
  rfl

/-- `4·b`, a row broadcast along the columns. -/
theorem fourb_entry : val_main_v48 (F := Ideal) y (ix2 i j) = w4 * y (ix2 j (0 : Fin 1)) := by
  rw [val_main_v48_apply, at_row48, val_main_v47_apply, val_main_v46_apply, val_main_cst_8_apply, row_entry]
  rfl

/-- `1 + a²`, a column broadcast along the rows. -/
theorem onepa_entry : val_main_v55 (F := Ideal) x (ix2 i j) = w1 + x (ix2 i (0 : Fin 1)) * x (ix2 i (0 : Fin 1)) := by
  rw [val_main_v55_apply, at_col55, val_main_v54_apply, val_main_v53_apply, val_main_cst_9_apply, val_main_v52_apply, col_entry]
  rfl

/-! ## The result -/

/-- The last stage at entry `(i, j)` is `cell` of the two entries it depends on. -/
theorem result_entry : val_main_v57 (F := Ideal) x y (ix2 i j) = cell (x (ix2 i (0 : Fin 1))) (y (ix2 j (0 : Fin 1))) := by
  rw [val_main_v57_apply, val_main_v51_apply, val_main_v50_apply, val_main_v45_apply, val_main_v38_apply, du11_entry,
    du22_entry, weight_entry, val_main_v49_apply, fourb_entry, du2_entry, val_main_v56_apply, onepa_entry, u_entry]
  rfl

/-- The reference's last stage is the shared result array. -/
theorem reference_eq : val_main_v57 (F := Ideal) x y = result x y := by
  funext k
  obtain ⟨p, q, rfl⟩ : ∃ (p : Fin 8192) (q : Fin 8192), k = ix2 p q := ⟨k 0, k 1, eq_ix2 k⟩
  rw [result_entry, result_apply]

end Cert.RefValue

end
-- ==== Proof.KernelValue.lean ====
/-
  The kernel's result array is the shared formula of its two arguments.

  The kernel runs over a 16 × 8 grid. At point `t` with block indices `(p, q)` it loads rows `512·p … 512·p + 511` of
  the first argument (a `[512, 1]` block), columns `1024·q … 1024·q + 1023` of the second argument laid out as a row
  (a `[1, 1024]` block of the `[1, 8192]` array the host writes before the call), and stores a `[512, 1024]` block whose
  entry `(r, s)` depends only on entry `r` of the first block and entry `s` of the second. Block `(p, q)` of the result
  is therefore the shared formula at rows `512·p + r` and columns `1024·q + s`; the 128 blocks tile the `[8192, 8192]`
  array, so the array is the formula everywhere.
-/
import proofs.«123482_j2559800508493_1_alg».proof.Proof.Gen.KernelIdeal.Value
import proofs.«123482_j2559800508493_1_alg».proof.Proof.Formula
import Idealize.ShloMosaic.Lib.ValueIdx
import Idealize.ShloMosaic.Lib.Pipeline.Value
import Idealize.ShloMosaic.Lib.StableHlo.Run

noncomputable section

namespace Cert.KernelValue

open Cert.KernelIdeal Cert.KernelIdeal.Gen Cert.KernelIdeal.Value Idealize.ShloMosaic Idealize.ShloMosaic.TcCoe
open Idealize.SL.Sem Idealize.ShloMosaic.StableHlo Idealize.ShloMosaic.ValueIdx Cert.Formula
open Idealize.ShloMosaic.Pipeline (Dat)

variable (m : (ℓ : Loc nD τ sig) → Buf (Elt Ideal) ℓ) (ρ : Dev nD → PrngReg)

/-! ## One entry of a stored block -/

/-- The stored block's entry at `y`, as an expression in the two loaded blocks' entries under `y` (its row in the first
    block, its column in the second): the body spells each negation as a difference from the zero word, which on the
    extended reals is the negation. -/
theorem block_entry (P0 : Vec Ideal S512x1 .f32) (P1 : Vec Ideal S1x1024 .f32) (y : S512x1024.Idx) :
    E2 (F := Ideal) P0 P1 y = cell (P0 (ix2_0 y)) (P1 (ix2_2 y)) :=
  (show E2 (F := Ideal) P0 P1 y = cellSub (P0 (ix2_0 y)) (P1 (ix2_2 y)) from rfl).trans (cellSub_eq _ _)

theorem offsets_zero : (![0, 0] : Fin 2 → Nat) = fun _ => 0 := funext fun a => by fin_cases a <;> rfl

/-- What the body leaves in the output's buffer, entry by entry, from the two input blocks. -/
theorem out_entry (x0 : Vec Ideal S512x1 .f32) (x1 : Vec Ideal S1x1024 .f32) (y : S512x1024.Idx) :
    out0_2 x0 x1 y = cell (x0 (ix2_0 y)) (x1 (ix2_2 y)) := by
  unfold out0_2
  rw [canon2_eq, block_entry]
  have h0 : View.ld x0 r0_0 = x0 := View.ld_unit_zero (S := S512x1) offsets_zero _ x0
  have h1 : View.ld x1 r0_1 = x1 := View.ld_unit_zero (S := S1x1024) offsets_zero _ x1
  exact congrArg₂ cell (congrFun h0 (ix2_0 y)) (congrFun h1 (ix2_2 y))

/-! ## The second argument as the region finds it: a row -/

/-- The host writes the `[1, 8192]` array before the call: the second argument reshaped to a vector and laid along
    the columns. -/
theorem row_array (c : Dev nD) :
    (V m c main_v1 : S1x8192.Idx → EReal)
      = broadcastInDim S1x8192 ![1] bcast_S8192_S1x8192_1
          (shapeCast S8192 (m ((c : Thread nD τ).loc main_arg1)) shapeCasts_S8192x1_S8192) := by
  dsimp only [Gen.V, Gen.hostOps0]; after_results; rfl

/-- Its entry `(0, q)` is the second argument's entry `q`. -/
theorem row_array_entry (c : Dev nD) (q : Fin 8192) :
    V m c main_v1 (ix2 (0 : Fin 1) q) = m ((c : Thread nD τ).loc main_arg1) (ix2 q (0 : Fin 1)) := by
  refine (congrFun (row_array m c) (ix2 (0 : Fin 1) q)).trans ?_
  refine (broadcastInDim_apply _ bcast_S8192_S1x8192_1 _ (ix2 (0 : Fin 1) q) (ix1 q) (fun a => match a with
    | ⟨0, _⟩ => by show q.val = if (8192 : Nat) = 1 then 0 else q.val; rw [if_neg (by decide)])).trans ?_
  exact shapeCast_apply _ shapeCasts_S8192x1_S8192 (ix1 q) (ix2 q (0 : Fin 1))
    (by rewrite [Shape.rowMajor_val_two, Shape.rowMajor_val_one]; show q.val * 1 + 0 = q.val; omega)

/-! ## The grid: which blocks a point reads and writes -/

/-- Over the 128 points: the first input's block index is the output's row block index (and 0 along its unit axis), the
    second input's is the output's column block index (and 0 along its unit axis). -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every one of the 16 × 8 output blocks is some point's. -/
theorem idx_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-! ## The input blocks' entries, read off the arguments -/

/-- The first input block's entry under `y` is the first argument's entry at `y`'s row of the whole array. -/
theorem col_block_entry (c : Dev nD) (t : Fin cfg0.N) (y : S512x1024.Idx) :
    iblk m c 0 t (ix2_0 y)
      = m ((c : Thread nD τ).loc main_arg0) (ix2 ((((cfg0.win 2).blk t).view.emb y) 0) (0 : Fin 1)) := by
  obtain ⟨e0, e1, -, -⟩ := idx_facts t
  show V m c main_arg0 (((cfg0.win 0).blk t).view.emb (ix2_0 y)) = _
  have hidx : ((cfg0.win 0).blk t).view.emb (ix2_0 y)
      = (ix2 ((((cfg0.win 2).blk t).view.emb y) 0) (0 : Fin 1) : S8192x1.Idx) := by
    funext a; apply Fin.ext
    match a with
    | ⟨0, _⟩ => show win0_0.index t (0 : Fin 2) * 512 + 1 * (y 0).val = win0_2.index t (0 : Fin 2) * 512 + 1 * (y 0).val; omega
    | ⟨1, _⟩ => show win0_0.index t (1 : Fin 2) * 1 + 1 * 0 = 0; omega
  rw [hidx, V_main_arg0]

/-- The second input block's entry under `y` is the second argument's entry at `y`'s column of the whole array. -/
theorem row_block_entry (c : Dev nD) (t : Fin cfg0.N) (y : S512x1024.Idx) :
    iblk m c 1 t (ix2_2 y)
      = m ((c : Thread nD τ).loc main_arg1) (ix2 ((((cfg0.win 2).blk t).view.emb y) 1) (0 : Fin 1)) := by
  obtain ⟨-, -, e2, e3⟩ := idx_facts t
  show V m c main_v1 (((cfg0.win 1).blk t).view.emb (ix2_2 y)) = _
  have hidx : ((cfg0.win 1).blk t).view.emb (ix2_2 y)
      = (ix2 (0 : Fin 1) ((((cfg0.win 2).blk t).view.emb y) 1) : S1x8192.Idx) := by
    funext a; apply Fin.ext
    match a with
    | ⟨0, _⟩ => show win0_1.index t (0 : Fin 2) * 1 + 1 * 0 = 0; omega
    | ⟨1, _⟩ => show win0_1.index t (1 : Fin 2) * 1024 + 1 * (y 1).val = win0_2.index t (1 : Fin 2) * 1024 + 1 * (y 1).val; omega
  rw [hidx]
  exact row_array_entry m c _

/-! ## From the blocks to the array -/

/-- The result array: the shared formula of the two arguments as launched. -/
abbrev G (c : Dev nD) : S8192x8192.Idx → EReal :=
  result (m ((c : Thread nD τ).loc main_arg0)) (m ((c : Thread nD τ).loc main_arg1))

/-- What point `t` writes back is block `t` of the formula's array. -/
theorem flushed_eq (c : Dev nD) (t : Fin cfg0.N) :
    (dats m 0 c).flushed 2 t = ((cfg0.win 2).blk t).view.read (Elt Ideal) (G m c) := by
  rw [flushed2]
  funext y
  show out0_2 (iblk m c 0 t) (iblk m c 1 t) y = G m c (((cfg0.win 2).blk t).view.emb y)
  refine (out_entry (iblk m c 0 t) (iblk m c 1 t) y).trans ?_
  rw [col_block_entry m c t y, row_block_entry m c t y]
  rfl

/-- An index of the array is in point `t`'s block iff each coordinate is in the block's range on its axis. -/
theorem mem_blk (t : Fin cfg0.N) (i : S8192x8192.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v2).slice (win0_2.rect t)).set ↔ _
  rw [View.set_slice_whole, Rect.mem_set_unit]
  exact Iff.rfl

/-- The blocks tile the array: entry `(r, s)` is in the block of the point with block indices `(r / 512, s / 1024)`. -/
theorem cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 512, by omega⟩ ⟨(i 1).val / 1024, by omega⟩
  have q0 : win0_2.index t (0 : Fin 2) = (i 0).val / 512 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- After the last point the result array holds the formula. -/
theorem final (c : Dev nD) : (dats m 0 c).arrAt 2 cfg0.N = G m c :=
  (dats m 0 c).arrAt_eq_of_cover 2 (G m c) (fun t _ => flushed_eq m c t) cover

/-- The kernel's run: the result array at the formula of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelValue

end
-- ==== Proof.lean ====
/-
  The kernel and its reference compute the same `[8192, 8192]` array from two `[8192, 1]` arguments (a third argument
  is read by neither): with `a` entry `i` of the first and `b` entry `j` of the second, and
  `u = exp (-(a² + 2·b² + 1))`, entry `(i, j)` is

    -(( (u²·4·a² - u·2) + (u²·16·b² - u·4) ) · (1 + 2·b²) + (4·b) · ((-u)·4·b)) + (1 + a²) · u.

  Both programs build this expression with the same operations on the same operands in the same order and with the
  same constants; they differ in how the work is laid out (the kernel computes `[512, 1024]` blocks over a 16 × 8
  grid, the reference whole arrays) and in the spelling of a negation (`0 - v` against `-v`), which on the extended
  reals is the same number at every `v`, so no entry need be finite. Proof/Formula.lean states the expression,
  Proof/RefValue.lean reads the reference's stages at an entry, Proof/KernelValue.lean reads the kernel's stored blocks
  at an entry and assembles them into the array. The frames are the generated ones; the reference's is its generated
  run with the result dropped. Nothing was rewritten between the kernel and its idealization, so that claim is `True`.
-/
import proofs.«123482_j2559800508493_1_alg».proof.Defs
import proofs.«123482_j2559800508493_1_alg».proof.Proof.Gen.Kernel
import proofs.«123482_j2559800508493_1_alg».proof.Proof.Gen.Kernel.Skeleton
import proofs.«123482_j2559800508493_1_alg».proof.Proof.Gen.Kernel.Launch
import proofs.«123482_j2559800508493_1_alg».proof.Proof.Gen.Kernel.Points
import proofs.«123482_j2559800508493_1_alg».proof.Proof.Gen.Kernel.Frame
import proofs.«123482_j2559800508493_1_alg».proof.Proof.Gen.KernelIdeal
import proofs.«123482_j2559800508493_1_alg».proof.Proof.Gen.KernelIdeal.Skeleton
import proofs.«123482_j2559800508493_1_alg».proof.Proof.Gen.KernelIdeal.Launch
import proofs.«123482_j2559800508493_1_alg».proof.Proof.Gen.KernelIdeal.Points
import proofs.«123482_j2559800508493_1_alg».proof.Proof.Gen.KernelIdeal.Frame
import proofs.«123482_j2559800508493_1_alg».proof.Proof.Gen.ReferenceIdeal
import proofs.«123482_j2559800508493_1_alg».proof.Proof.Gen.Pre_finite_inputs
import proofs.«123482_j2559800508493_1_alg».proof.Proof.Gen.KernelIdeal.Value
import proofs.«123482_j2559800508493_1_alg».proof.Proof.Gen.ReferenceIdeal.Run
import proofs.«123482_j2559800508493_1_alg».proof.Proof.Gen.ReferenceIdeal.Read
import proofs.«123482_j2559800508493_1_alg».proof.Proof.Formula
import proofs.«123482_j2559800508493_1_alg».proof.Proof.RefValue
import proofs.«123482_j2559800508493_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the result array at the shared formula of the
    arguments: the kernel by its blocks, the reference stage by stage. -/
theorem algebraic : Cert.algebraic_KernelIdeal_ReferenceIdeal := by
  intro m ρ m' ρ' _ hagree
  refine ⟨fun c => Cert.KernelValue.G m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.RefValue.reference_eq, (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
